-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x640 : Shape := ⟨3, ![8, 256, 640]⟩
abbrev S8x64x640 : Shape := ⟨3, ![8, 64, 640]⟩
abbrev S1024x640 : Shape := ⟨2, ![1024, 640]⟩
abbrev S1024 : Shape := ⟨1, ![1024]⟩
abbrev S_ : Shape := ⟨0, ![]⟩

class Facts : Prop where
  bcast_S_S8x256x640 : S_.BroadcastsInDim S8x256x640 (![] : Fin 0 → Fin S8x256x640.rank)
  reducesTo_S8x256x640_S_d0_1_2 : S8x256x640.ReducesTo [0, 1, 2] S_
  h_S_ : 0 < S_.numel
  bcast_S_S8x64x640 : S_.BroadcastsInDim S8x64x640 (![] : Fin 0 → Fin S8x64x640.rank)
  reducesTo_S8x64x640_S_d0_1_2 : S8x64x640.ReducesTo [0, 1, 2] S_
  bcast_S_S1024x640 : S_.BroadcastsInDim S1024x640 (![] : Fin 0 → Fin S1024x640.rank)
  reducesTo_S1024x640_S_d0_1 : S1024x640.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x640 .f32) (main_arg1 : FVec F S8x64x640 .f32) (main_arg2 : FVec F S1024x640 .f32) (main_arg3 : FVec F S1024 .f32) : IVec S_ 1 :=
  let main_v0 : FVec F S8x256x640 .f32 := Host.absf main_arg0
  let main_cst : FVec F S_ .f32 := constant S_ .f32 0x7F800000#32
  let main_v1 : FVec F S8x256x640 .f32 := broadcastInDim S8x256x640 ![] bcast_S_S8x256x640 main_cst
  let main_v2 : IVec S8x256x640 1 := cmpf .olt main_v0 main_v1
  let main_c : IVec S_ 1 := constantI S_ 1 1#1
  let main_v3 : IVec S_ 1 := (fun x v => Host.reduce IntOp.andi x v reducesTo_S8x256x640_S_d0_1_2 h_S_) main_v2 main_c
  let main_v4 : FVec F S8x64x640 .f32 := Host.absf main_arg1
  let main_cst_0 : FVec F S_ .f32 := constant S_ .f32 0x7F800000#32
  let main_v5 : FVec F S8x64x640 .f32 := broadcastInDim S8x64x640 ![] bcast_S_S8x64x640 main_cst_0
  let main_v6 : IVec S8x64x640 1 := cmpf .olt main_v4 main_v5
  let main_c_1 : IVec S_ 1 := constantI S_ 1 1#1
  let main_v7 : IVec S_ 1 := (fun x v => Host.reduce IntOp.andi x v reducesTo_S8x64x640_S_d0_1_2 h_S_) main_v6 main_c_1
  let main_v8 : IVec S_ 1 := andi main_v3 main_v7
  let main_v9 : FVec F S1024x640 .f32 := Host.absf main_arg2
  let main_cst_2 : FVec F S_ .f32 := constant S_ .f32 0x7F800000#32
  let main_v10 : FVec F S1024x640 .f32 := broadcastInDim S1024x640 ![] bcast_S_S1024x640 main_cst_2
  let main_v11 : IVec S1024x640 1 := cmpf .olt main_v9 main_v10
  let main_c_3 : IVec S_ 1 := constantI S_ 1 1#1
  let main_v12 : IVec S_ 1 := (fun x v => Host.reduce IntOp.andi x v reducesTo_S1024x640_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x640 : Shape := ⟨3, ![8, 256, 640]⟩
abbrev S8x64x640 : Shape := ⟨3, ![8, 64, 640]⟩
abbrev S1024x640 : Shape := ⟨2, ![1024, 640]⟩
abbrev S1024 : Shape := ⟨1, ![1024]⟩
abbrev S8x256x64x1024 : Shape := ⟨4, ![8, 256, 64, 1024]⟩
abbrev S1x64x640 : Shape := ⟨3, ![1, 64, 640]⟩
abbrev S256x640 : Shape := ⟨2, ![256, 640]⟩
abbrev S256 : Shape := ⟨1, ![256]⟩
abbrev S1x64x64x256 : Shape := ⟨4, ![1, 64, 64, 256]⟩
abbrev S64x640 : Shape := ⟨2, ![64, 640]⟩
abbrev S64x1x640 : Shape := ⟨3, ![64, 1, 640]⟩
abbrev S64x64x640 : Shape := ⟨3, ![64, 64, 640]⟩
abbrev S4096x640 : Shape := ⟨2, ![4096, 640]⟩
abbrev S4096x256 : Shape := ⟨2, ![4096, 256]⟩
abbrev S64x64x256 : Shape := ⟨3, ![64, 64, 256]⟩
abbrev S1x1x256 : Shape := ⟨3, ![1, 1, 256]⟩

abbrev nBuf : Space → Nat
  | .hbm => 5
  | .vmem => 10
  | .smem => 0
  | _ => 0

abbrev bufTy : (tb : Table) → Fin (tcTables nBuf tb) → BufTy
  | .hbm, ⟨0, _⟩ => ⟨S8x256x640, .f32⟩
  | .hbm, ⟨1, _⟩ => ⟨S8x64x640, .f32⟩
  | .hbm, ⟨2, _⟩ => ⟨S1024x640, .f32⟩
  | .hbm, ⟨3, _⟩ => ⟨S1024, .f32⟩
  | .hbm, ⟨4, _⟩ => ⟨S8x256x64x1024, .f32⟩
  | .local _ .vmem, ⟨0, _⟩ => ⟨S1x64x640, .f32⟩
  | .local _ .vmem, ⟨1, _⟩ => ⟨S1x64x640, .f32⟩
  | .local _ .vmem, ⟨2, _⟩ => ⟨S1x64x640, .f32⟩
  | .local _ .vmem, ⟨3, _⟩ => ⟨S1x64x640, .f32⟩
  | .local _ .vmem, ⟨4, _⟩ => ⟨S256x640, .f32⟩
  | .local _ .vmem, ⟨5, _⟩ => ⟨S256x640, .f32⟩
  | .local _ .vmem, ⟨6, _⟩ => ⟨S256, .f32⟩
  | .local _ .vmem, ⟨7, _⟩ => ⟨S256, .f32⟩
  | .local _ .vmem, ⟨8, _⟩ => ⟨S1x64x64x256, .f32⟩
  | .local _ .vmem, ⟨9, _⟩ => ⟨S1x64x64x256, .f32⟩
  | _, _ => ⟨S8x256x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat, arg0.toNat]

abbrev stage0_0 : Fin 2 → Memref sig .tc .vmem S1x64x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x64x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x64x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  shapeCasts_S64x640_S64x1x640 : S64x640.ShapeCasts S64x1x640
  shapeCasts_S64x640_S1x64x640 : S64x640.ShapeCasts S1x64x640
  broadcasts_S64x1x640_S64x64x640 : S64x1x640.Broadcasts S64x64x640
  broadcasts_S1x64x640_S64x64x640 : S1x64x640.Broadcasts S64x64x640
  shapeCasts_S64x64x640_S4096x640 : S64x64x640.ShapeCasts S4096x640
  bitsLt_bf16_f32 : FTy.bits .bf16 < FTy.bits .f32
  inb_S256x640_S256x640_0_0 : ∀ a, (![0, 0] : Fin 2 → Nat) a + S256x640.size a ≤ S256x640.size a
  h_S256x640 : 0 < S256x640.numel
  shapeCasts_S4096x256_S64x64x256 : S4096x256.ShapeCasts S64x64x256
  inb_S256_S256_0 : ∀ a, (![0] : Fin 1 → Nat) a + S256.size a ≤ S256.size a
  h_S256 : 0 < S256.numel
  shapeCasts_S256_S1x1x256 : S256.ShapeCasts S1x1x256
  broadcasts_S1x1x256_S64x64x256 : S1x1x256.Broadcasts S64x64x256
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S1x64x64x256 : S64x64x256.ShapeCasts S1x64x64x256
  dot_S4096x640_S256x640_S4096x256_1_1_0_0_n_n_wf : DotDims.WF S4096x640 S256x640 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x640.size a ≤ S8x256x640.size a
  hwx0_0 : ∀ i : grid0.Coords, EltTy.bits .f32 = 32 ∨ (Rect.block (s := S8x256x640) S1x64x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x640.size a ≤ S8x64x640.size a
  hwx0_1 : ∀ i : grid0.Coords, EltTy.bits .f32 = 32 ∨ (Rect.block (s := S8x64x640) S1x64x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x640.size a ≤ S1024x640.size a
  hwx0_2 : ∀ i : grid0.Coords, EltTy.bits .f32 = 32 ∨ (Rect.block (s := S1024x640) S256x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S1024.size a
  hwx0_3 : ∀ i : grid0.Coords, EltTy.bits .f32 = 32 ∨ (Rect.block (s := S1024) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64x256.size a ≤ S8x256x64x1024.size a
  hwx0_4 : ∀ i : grid0.Coords, EltTy.bits .f32 = 32 ∨ (Rect.block (s := S8x256x64x1024) S1x64x64x256.size (cc0_transform_4 i) (hinb0_4 i)).WholeWords (EltTy.packing .f32)

variable [Facts₀]

def dot_S4096x640_S256x640_S4096x256_1_1_0_0_n_n : DotDims S4096x640 S256x640 S4096x256 where
  lhsContracting := [1]
  rhsContracting := [1]
  lhsNonContracting := [0]
  rhsNonContracting := [0]
  lhsBatch := []
  rhsBatch := []
  wf := dot_S4096x640_S256x640_S4096x256_1_1_0_0_n_n_wf

abbrev win0_0 : Pipeline.Window sig grid0 :=
  Pipeline.Window.ofSpec (Memref.whole main_arg0) S1x64x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x640 : Shape := ⟨3, ![8, 256, 640]⟩
abbrev S8x64x640 : Shape := ⟨3, ![8, 64, 640]⟩
abbrev S1024x640 : Shape := ⟨2, ![1024, 640]⟩
abbrev S1024 : Shape := ⟨1, ![1024]⟩
abbrev S8x256x1x640 : Shape := ⟨4, ![8, 256, 1, 640]⟩
abbrev S8x1x64x640 : Shape := ⟨4, ![8, 1, 64, 640]⟩
abbrev S8x256x64x640 : Shape := ⟨4, ![8, 256, 64, 640]⟩
abbrev S_ : Shape := ⟨0, ![]⟩
abbrev S8x256x64x1024 : Shape := ⟨4, ![8, 256, 64, 1024]⟩
abbrev S1x1x1x1024 : Shape := ⟨4, ![1, 1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x256x640, .f32⟩
  | .hbm, ⟨1, _⟩ => ⟨S8x64x640, .f32⟩
  | .hbm, ⟨2, _⟩ => ⟨S1024x640, .f32⟩
  | .hbm, ⟨3, _⟩ => ⟨S1024, .f32⟩
  | .hbm, ⟨4, _⟩ => ⟨S8x256x1x640, .f32⟩
  | .hbm, ⟨5, _⟩ => ⟨S8x1x64x640, .f32⟩
  | .hbm, ⟨6, _⟩ => ⟨S8x256x64x640, .f32⟩
  | .hbm, ⟨7, _⟩ => ⟨S8x256x64x640, .f32⟩
  | .hbm, ⟨8, _⟩ => ⟨S8x256x64x640, .f32⟩
  | .hbm, ⟨9, _⟩ => ⟨S_, .f32⟩
  | .hbm, ⟨10, _⟩ => ⟨S8x256x64x640, .f32⟩
  | .hbm, ⟨11, _⟩ => ⟨S8x256x64x640, .f32⟩
  | .hbm, ⟨12, _⟩ => ⟨S8x256x64x1024, .f32⟩
  | .hbm, ⟨13, _⟩ => ⟨S1x1x1x1024, .f32⟩
  | .hbm, ⟨14, _⟩ => ⟨S8x256x64x1024, .f32⟩
  | .hbm, ⟨15, _⟩ => ⟨S8x256x64x1024, .f32⟩
  | _, _ => ⟨S8x256x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S8x256x640_S8x256x1x640_0_1_3 : S8x256x640.BroadcastsInDim S8x256x1x640 (![0, 1, 3] : Fin 3 → Fin S8x256x1x640.rank)
  bcast_S8x64x640_S8x1x64x640_0_2_3 : S8x64x640.BroadcastsInDim S8x1x64x640 (![0, 2, 3] : Fin 3 → Fin S8x1x64x640.rank)
  bcast_S8x256x1x640_S8x256x64x640_0_1_2_3 : S8x256x1x640.BroadcastsInDim S8x256x64x640 (![0, 1, 2, 3] : Fin 4 → Fin S8x256x64x640.rank)
  bcast_S8x1x64x640_S8x256x64x640_0_1_2_3 : S8x1x64x640.BroadcastsInDim S8x256x64x640 (![0, 1, 2, 3] : Fin 4 → Fin S8x256x64x640.rank)
  bcast_S_S8x256x64x640 : S_.BroadcastsInDim S8x256x64x640 (![] : Fin 0 → Fin S8x256x64x640.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x64x640_S1024x640_S8x256x64x1024_3_1_012_0_n_n_wf : DotDims.WF S8x256x64x640 S1024x640 S8x256x64x1024 [3] [1] [0, 1, 2] [0] [] []

variable [Facts₀]

def dot_S8x256x64x640_S1024x640_S8x256x64x1024_3_1_012_0_n_n : DotDims S8x256x64x640 S1024x640 S8x256x64x1024 where
  lhsContracting := [3]
  rhsContracting := [1]
  lhsNonContracting := [0, 1, 2]
  rhsNonContracting := [0]
  lhsBatch := []
  rhsBatch := []
  wf := dot_S8x256x64x640_S1024x640_S8x256x64x1024_3_1_012_0_n_n_wf

class Facts : Prop extends Facts₀ where

variable [Facts]
-- ==== Proof.Relay.lean ====
/-
  Values re-laid by the joint network's kernel body, read at coordinates.

  The body broadcasts an encoder tile [1, 64, 640] along a new middle axis and a predictor tile [1, 64, 640]
  along a new leading axis, flattens the 64 x 64 pairs into 4096 rows for the product, unflattens the product's
  rows, lays the bias row [256] out along the last axis, and stores through a leading unit axis. Each lemma
  below reads one such chain of shape casts and broadcasts at an index given by its coordinates: the result
  is the operand at the coordinates the row-major positions force. Nothing here depends on the element type.
-/
import Idealize.ShloMosaic.Lib.Pipeline.Value
import Idealize.ShloMosaic.Lib.ValueIdx

namespace Cert.Joint.Relay

open Idealize.ShloMosaic Idealize.ShloMosaic.ValueIdx

variable {α : Type}

/-- The encoder tile, viewed [64, 640], given a unit middle axis and broadcast over the 64 label positions:
    at (i, u, k) it is the tile's row i, column k, whatever u. -/
theorem encoder_at (x : (⟨3, ![1, 64, 640]⟩ : Shape).Idx → α)
    (h1 : (⟨3, ![1, 64, 640]⟩ : Shape).ShapeCasts ⟨2, ![64, 640]⟩)
    (h2 : (⟨2, ![64, 640]⟩ : Shape).ShapeCasts ⟨3, ![64, 1, 640]⟩)
    (h3 : (⟨3, ![64, 1, 640]⟩ : Shape).Broadcasts ⟨3, ![64, 64, 640]⟩)
    (i u : Fin 64) (k : Fin 640) :
    broadcastTo ⟨3, ![64, 64, 640]⟩ (shapeCast ⟨3, ![64, 1, 640]⟩ (shapeCast ⟨2, ![64, 640]⟩ x h1) h2) h3 (ix3 i u k)
      = x (ix3 (0 : Fin 1) i k) := by
  refine (broadcastTo_apply _ h3 (ix3 i u k) (ix3 i (0 : Fin 1) k) (fun a => ?_)).trans ?_
  · match a with
    | ⟨0, _⟩ => rfl
    | ⟨1, _⟩ => rfl
    | ⟨2, _⟩ => rfl
  refine (shapeCast_apply _ h2 (ix3 i (0 : Fin 1) k) (ix2 i k) ?_).trans ?_
  · rw [Shape.rowMajor_val_two, Shape.rowMajor_val_three]
    show i.val * 640 + k.val = (i.val * 1 + 0) * 640 + k.val
    omega
  refine shapeCast_apply _ h1 (ix2 i k) (ix3 (0 : Fin 1) i k) ?_
  rw [Shape.rowMajor_val_two, Shape.rowMajor_val_three]
  show (0 * 64 + i.val) * 640 + k.val = i.val * 640 + k.val
  omega

/-- The predictor tile, viewed [64, 640] and back, broadcast over the 64 time positions: at (i, u, k) it is
    the tile's row u, column k, whatever i. -/
theorem predictor_at (x : (⟨3, ![1, 64, 640]⟩ : Shape).Idx → α)
    (h1 : (⟨3, ![1, 64, 640]⟩ : Shape).ShapeCasts ⟨2, ![64, 640]⟩)
    (h2 : (⟨2, ![64, 640]⟩ : Shape).ShapeCasts ⟨3, ![1, 64, 640]⟩)
    (h3 : (⟨3, ![1, 64, 640]⟩ : Shape).Broadcasts ⟨3, ![64, 64, 640]⟩)
    (i u : Fin 64) (k : Fin 640) :
    broadcastTo ⟨3, ![64, 64, 640]⟩ (shapeCast ⟨3, ![1, 64, 640]⟩ (shapeCast ⟨2, ![64, 640]⟩ x h1) h2) h3 (ix3 i u k)
      = x (ix3 (0 : Fin 1) u k) := by
  rw [shapeCast_shapeCast]
  refine broadcastTo_apply _ h3 (ix3 i u k) (ix3 (0 : Fin 1) u k) (fun a => ?_)
  match a with
  | ⟨0, _⟩ => rfl
  | ⟨1, _⟩ => rfl
  | ⟨2, _⟩ => rfl

/-- The bias row laid out [1, 1, 256] and broadcast over the 64 x 64 pairs: at (i, u, n) it is entry n. -/
theorem bias_at (x : (⟨1, ![256]⟩ : Shape).Idx → α)
    (h1 : (⟨1, ![256]⟩ : Shape).ShapeCasts ⟨3, ![1, 1, 256]⟩)
    (h2 : (⟨3, ![1, 1, 256]⟩ : Shape).Broadcasts ⟨3, ![64, 64, 256]⟩)
    (i u : Fin 64) (n : Fin 256) :
    broadcastTo ⟨3, ![64, 64, 256]⟩ (shapeCast ⟨3, ![1, 1, 256]⟩ x h1) h2 (ix3 i u n) = x (ix1 n) := by
  refine (broadcastTo_apply _ h2 (ix3 i u n) (ix3 (0 : Fin 1) (0 : Fin 1) n) (fun a => ?_)).trans ?_
  · match a with
    | ⟨0, _⟩ => rfl
    | ⟨1, _⟩ => rfl
    | ⟨2, _⟩ => rfl
  refine shapeCast_apply _ h1 (ix3 (0 : Fin 1) (0 : Fin 1) n) (ix1 n) ?_
  rw [Shape.rowMajor_val_one, Shape.rowMajor_val_three]
  show n.val = (0 * 1 + 0) * 256 + n.val
  omega

/-- The 64 x 64 pairs flattened to 4096 rows: row 64 i + u of the flat matrix is pair (i, u). -/
theorem pairs_flat (v : (⟨3, ![64, 64, 640]⟩ : Shape).Idx → α)
    (h : (⟨3, ![64, 64, 640]⟩ : Shape).ShapeCasts ⟨2, ![4096, 640]⟩)
    (i u : Fin 64) (k : Fin 640) (r : Fin 4096) (hr : r.val = i.val * 64 + u.val) :
    shapeCast ⟨2, ![4096, 640]⟩ v h (ix2 r k) = v (ix3 i u k) := by
  refine shapeCast_apply _ h (ix2 r k) (ix3 i u k) ?_
  rw [Shape.rowMajor_val_two, Shape.rowMajor_val_three]
  show (i.val * 64 + u.val) * 640 + k.val = r.val * 640 + k.val
  rw [hr]

/-- The product's 4096 rows unflattened: pair (i, u) is row 64 i + u. -/
theorem rows_paired (v : (⟨2, ![4096, 256]⟩ : Shape).Idx → α)
    (h : (⟨2, ![4096, 256]⟩ : Shape).ShapeCasts ⟨3, ![64, 64, 256]⟩)
    (i u : Fin 64) (n : Fin 256) (r : Fin 4096) (hr : r.val = i.val * 64 + u.val) :
    shapeCast ⟨3, ![64, 64, 256]⟩ v h (ix3 i u n) = v (ix2 r n) := by
  refine shapeCast_apply _ h (ix3 i u n) (ix2 r n) ?_
  rw [Shape.rowMajor_val_two, Shape.rowMajor_val_three]
  show r.val * 256 + n.val = (i.val * 64 + u.val) * 256 + n.val
  rw [hr]

/-- A leading unit axis added for the store: (z, i, u, n) reads (i, u, n). -/
theorem lead_unit (v : (⟨3, ![64, 64, 256]⟩ : Shape).Idx → α)
    (h : (⟨3, ![64, 64, 256]⟩ : Shape).ShapeCasts ⟨4, ![1, 64, 64, 256]⟩)
    (z : Fin 1) (i u : Fin 64) (n : Fin 256) :
    shapeCast ⟨4, ![1, 64, 64, 256]⟩ v h (ix4 z i u n) = v (ix3 i u n) := by
  refine shapeCast_apply _ h (ix4 z i u n) (ix3 i u n) ?_
  rw [Shape.rowMajor_val_three, Shape.rowMajor_val_four]
  show (i.val * 64 + u.val) * 256 + n.val = ((z.val * 64 + i.val) * 64 + u.val) * 256 + n.val
  have hz : z.val = 0 := by have := z.isLt; omega
  rw [hz]
  omega

end Cert.Joint.Relay
-- ==== Proof.Body.lean ====
/-
  One tile of the kernel's body, read at an entry.

  At a grid point the body holds an encoder tile x0 [1, 64, 640], a predictor tile x1 [1, 64, 640], a block x2 of
  256 rows of the projection [256, 640] and the matching 256 bias entries x3. It forms all 64 x 64 sums of an
  encoder row and a predictor row, takes the maximum with zero, multiplies the 4096 resulting rows against the
  projection block contracting the 640 columns of both, and adds the bias along the last axis. At the ideal
  values the narrowing to bf16 is the identity and the product into the zero accumulator is the plain sum, so
  the entry (·, i, u, n) of what it stores is

      sum over k < 640 of  max (x0[0, i, k] + x1[0, u, k], 0) * x2[n, k]   +   x3[n].
-/
import proofs.«128222_j48438641164781_1_alg».proof.Proof.Gen.KernelIdeal.Skeleton
import proofs.«128222_j48438641164781_1_alg».proof.Proof.Relay
import Idealize.ShloMosaic.PureOps.Ideal.Laws
import Idealize.ShloMosaic.Lib.ValueIdx

noncomputable section

namespace Cert.KernelIdeal.Body

open Cert.KernelIdeal Cert.KernelIdeal.Gen Idealize.ShloMosaic Idealize.ShloMosaic.ValueIdx Cert.Joint
open scoped BigOperators

/-! ## The product's operand indices -/

/-- The left operand's row is the result's row. -/
theorem lhs_row (j : S4096x256.Idx) (q : dot_S4096x640_S256x640_S4096x256_1_1_0_0_n_n.contr.Idx) :
    (dot_S4096x640_S256x640_S4096x256_1_1_0_0_n_n.lhsIdx j q 0).val = (j 0).val := by
  unfold DotDims.lhsIdx
  rw [dif_neg (show ¬(0 : Fin S4096x640.rank) ∈ dot_S4096x640_S256x640_S4096x256_1_1_0_0_n_n.lhsBatch by decide), dif_pos (show (0 : Fin S4096x640.rank) ∈ dot_S4096x640_S256x640_S4096x256_1_1_0_0_n_n.lhsNonContracting by decide)]
  rfl
/-- The left operand's column is the contraction position. -/
theorem lhs_col (j : S4096x256.Idx) (q : dot_S4096x640_S256x640_S4096x256_1_1_0_0_n_n.contr.Idx) :
    (dot_S4096x640_S256x640_S4096x256_1_1_0_0_n_n.lhsIdx j q 1).val = (q ⟨0, by decide⟩).val :=
  dot_S4096x640_S256x640_S4096x256_1_1_0_0_n_n.lhsIdx_val_of_single rfl j q
/-- The right operand's row is the result's column. -/
theorem rhs_row (j : S4096x256.Idx) (q : dot_S4096x640_S256x640_S4096x256_1_1_0_0_n_n.contr.Idx) :
    (dot_S4096x640_S256x640_S4096x256_1_1_0_0_n_n.rhsIdx j q 0).val = (j 1).val := by
  unfold DotDims.rhsIdx
  rw [dif_neg (show ¬(0 : Fin S256x640.rank) ∈ dot_S4096x640_S256x640_S4096x256_1_1_0_0_n_n.rhsBatch by decide), dif_pos (show (0 : Fin S256x640.rank) ∈ dot_S4096x640_S256x640_S4096x256_1_1_0_0_n_n.rhsNonContracting by decide)]
  rfl
/-- The right operand's column is the contraction position. -/
theorem rhs_col (j : S4096x256.Idx) (q : dot_S4096x640_S256x640_S4096x256_1_1_0_0_n_n.contr.Idx) :
    (dot_S4096x640_S256x640_S4096x256_1_1_0_0_n_n.rhsIdx j q 1).val = (q ⟨0, by decide⟩).val :=
  dot_S4096x640_S256x640_S4096x256_1_1_0_0_n_n.rhsIdx_val_of_single rfl j q

/-- The product of a [4096, 640] matrix with the transpose of a [256, 640] one, into the zero accumulator, at the
    ideal values: entry (r, n) is the sum over the 640 columns of row r of the first times row n of the second. -/
theorem product_at (A : FVec Ideal S4096x640 .bf16) (B : FVec Ideal S256x640 .bf16) (r : Fin 4096) (n : Fin 256) :
    matmul dot_S4096x640_S256x640_S4096x256_1_1_0_0_n_n none A B (constant S4096x256 .f32 0x00000000#32) (ix2 r n)
      = ∑ k : Fin 640, A (ix2 r k) * B (ix2 n k) := by
  simp only [matmul]
  rw [Ideal.matmul_constant_zero_apply, ← Equiv.sum_comp (contrEquiv1 dot_S4096x640_S256x640_S4096x256_1_1_0_0_n_n 640 rfl rfl).symm]
  refine Finset.sum_congr rfl fun k _ => ?_
  have hk := contrEquiv1_symm_val dot_S4096x640_S256x640_S4096x256_1_1_0_0_n_n 640 rfl rfl k
  have el : dot_S4096x640_S256x640_S4096x256_1_1_0_0_n_n.lhsIdx (ix2 r n) ((contrEquiv1 dot_S4096x640_S256x640_S4096x256_1_1_0_0_n_n 640 rfl rfl).symm k) = ix2 r k := funext fun a => Fin.ext (by
    match a with
    | ⟨0, _⟩ => exact lhs_row _ _
    | ⟨1, _⟩ => exact (lhs_col _ _).trans hk)
  have er : dot_S4096x640_S256x640_S4096x256_1_1_0_0_n_n.rhsIdx (ix2 r n) ((contrEquiv1 dot_S4096x640_S256x640_S4096x256_1_1_0_0_n_n 640 rfl rfl).symm k) = ix2 n k := funext fun a => Fin.ext (by
    match a with
    | ⟨0, _⟩ => exact rhs_row _ _
    | ⟨1, _⟩ => exact (rhs_col _ _).trans hk)
  rw [el, er]

/-! ## The stored tile at an entry -/

/-- The flat row of the pair (i, u). -/
def pairRow (i u : Fin 64) : Fin 4096 := ⟨i.val * 64 + u.val, by have := i.isLt; have := u.isLt; omega⟩

/-- What the body stores, at entry (z, i, u, n): the hidden-axis sum of the rectified encoder-plus-predictor row
    against row n of the projection block, plus bias entry n. -/
theorem tile_at (x0 x1 : Vec Ideal S1x64x640 .f32) (x2 : Vec Ideal S256x640 .f32) (x3 : Vec Ideal S256 .f32)
    (z : Fin 1) (i u : Fin 64) (n : Fin 256) :
    k0_pay1 (F := Ideal) x0 x1 x2 x3 (ix4 z i u n)
      = (∑ k : Fin 640, max (x0 (ix3 (0 : Fin 1) i k) + x1 (ix3 (0 : Fin 1) u k)) (Ideal.ofBits .f32 0x00000000#32) * x2 (ix2 n k))
        + x3 (ix1 n) := by
  unfold k0_pay1
  refine (Relay.lead_unit _ _ z i u n).trans ?_
  rw [addf_apply, Relay.bias_at _ _ _ i u n, Relay.rows_paired _ _ i u n (pairRow i u) rfl, product_at]
  refine congrArg (· + x3 (ix1 n)) (Finset.sum_congr rfl fun k _ => ?_)
  rw [truncf_apply, truncf_apply, Relay.pairs_flat _ _ i u k (pairRow i u) rfl, maximumf_apply, addf_apply, broadcast_apply,
    Relay.encoder_at, Relay.predictor_at]
  rfl

end Cert.KernelIdeal.Body

end
-- ==== Proof.Joint.lean ====
/-
  The joint network's logits as ONE function of the four argument arrays.

  With f the encoder states [8, 256, 640], p the predictor states [8, 64, 640], W the projection [1024, 640]
  and b its bias [1024], the logit at batch s, time t, label position u and vocabulary entry v is

      sum over k < 640 of  max (f[s, t, k] + p[s, u, k], 0) * W[v, k]   +   b[v]

  on the extended reals, the zero written as the float word both programs print for it. Both programs are
  shown to end with their result array at this function.
-/
import Idealize.ShloMosaic.PureOps.Ideal
import Idealize.ShloMosaic.Lib.ValueIdx

noncomputable section

namespace Cert.Joint

open Idealize.ShloMosaic Idealize.ShloMosaic.ValueIdx
open scoped BigOperators

/-- One logit, by its four coordinates. -/
def logit (f : (⟨3, ![8, 256, 640]⟩ : Shape).Idx → EReal) (p : (⟨3, ![8, 64, 640]⟩ : Shape).Idx → EReal)
    (W : (⟨2, ![1024, 640]⟩ : Shape).Idx → EReal) (b : (⟨1, ![1024]⟩ : Shape).Idx → EReal)
    (s : Fin 8) (t : Fin 256) (u : Fin 64) (v : Fin 1024) : EReal :=
  (∑ k : Fin 640, max (f (ix3 s t k) + p (ix3 s u k)) (Ideal.ofBits .f32 0x00000000#32) * W (ix2 v k)) + b (ix1 v)

/-- The whole logits array. -/
def logits (f : (⟨3, ![8, 256, 640]⟩ : Shape).Idx → EReal) (p : (⟨3, ![8, 64, 640]⟩ : Shape).Idx → EReal)
    (W : (⟨2, ![1024, 640]⟩ : Shape).Idx → EReal) (b : (⟨1, ![1024]⟩ : Shape).Idx → EReal) :
    (⟨4, ![8, 256, 64, 1024]⟩ : Shape).Idx → EReal :=
  fun i => logit f p W b (i 0) (i 1) (i 2) (i 3)

end Cert.Joint

end
-- ==== Proof.Whole.lean ====
/-
  From the kernel's tiles to its whole result array.

  The grid has 4 x 8 x 4 points (vocabulary block, batch entry, time tile). At a point the encoder window holds
  64 time steps of one batch entry, the predictor window that batch entry's 64 label positions, the projection and
  bias windows 256 vocabulary rows, and the output window the [1, 64, 64, 256] block of the logits at that batch
  entry, time tile and vocabulary block. Each point's stored tile is therefore exactly its block of the logits
  function of the whole argument arrays; the 128 blocks tile the array; so the array ends holding that function.
-/
import proofs.«128222_j48438641164781_1_alg».proof.Proof.Gen.KernelIdeal.Value
import proofs.«128222_j48438641164781_1_alg».proof.Proof.Body
import proofs.«128222_j48438641164781_1_alg».proof.Proof.Joint

noncomputable section

namespace Cert.KernelIdeal.Whole

open Cert.KernelIdeal Cert.KernelIdeal.Gen Idealize.ShloMosaic Idealize.ShloMosaic.TcCoe Idealize.SL.Sem
open Idealize.ShloMosaic.ValueIdx Cert.Joint
open Idealize.ShloMosaic.Pipeline (Dat)
open scoped BigOperators

/-! ## A tile whose loads are blocks of the arguments is a block of the logits -/

/-- If, along the hidden axis, the loaded encoder row (y 1), predictor row (y 2), projection row (y 3) and bias
    entry (y 3) are the rows of f, p, W, b that the array index I names, the stored tile at y is the logit at I. -/
theorem tile_is_logits (f : S8x256x640.Idx → EReal) (p : S8x64x640.Idx → EReal) (W : S1024x640.Idx → EReal) (b : S1024.Idx → EReal)
    (x0 x1 : Vec Ideal S1x64x640 .f32) (x2 : Vec Ideal S256x640 .f32) (x3 : Vec Ideal S256 .f32)
    (y : S1x64x64x256.Idx) (I : S8x256x64x1024.Idx)
    (h0 : ∀ k : Fin 640, x0 (ix3 (0 : Fin 1) (y 1) k) = f (ix3 (I 0) (I 1) k))
    (h1 : ∀ k : Fin 640, x1 (ix3 (0 : Fin 1) (y 2) k) = p (ix3 (I 0) (I 2) k))
    (h2 : ∀ k : Fin 640, x2 (ix2 (y 3) k) = W (ix2 (I 3) k))
    (h3 : x3 (ix1 (y 3)) = b (ix1 (I 3))) :
    k0_pay1 (F := Ideal) x0 x1 x2 x3 y = logits f p W b I := by
  obtain ⟨z, i, u, n, rfl⟩ : ∃ (z : Fin 1) (i u : Fin 64) (n : Fin 256), y = ix4 z i u n := ⟨y 0, y 1, y 2, y 3, eq_ix4 y⟩
  have h0' : ∀ k : Fin 640, x0 (ix3 (0 : Fin 1) i k) = f (ix3 (I 0) (I 1) k) := h0
  have h1' : ∀ k : Fin 640, x1 (ix3 (0 : Fin 1) u k) = p (ix3 (I 0) (I 2) k) := h1
  have h2' : ∀ k : Fin 640, x2 (ix2 n k) = W (ix2 (I 3) k) := h2
  have h3' : x3 (ix1 n) = b (ix1 (I 3)) := h3
  rw [Body.tile_at]
  unfold logits logit
  rw [h3']
  refine congrArg (· + b (ix1 (I 3))) (Finset.sum_congr rfl fun k _ => ?_)
  rw [h0' k, h1' k, h2' k]

/-! ## The index maps over the grid -/

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- Decided over the 128 points: the encoder window follows the output's batch and time-tile block indices, the
    predictor window its batch index, the projection and bias windows its vocabulary block index; every other block
    index is zero; and the output's block indices stay in their ranges. -/
theorem idx_facts : ∀ t : Fin cfg0.N,
    win0_0.index t (0 : Fin 3) = win0_4.index t (0 : Fin 4)
    ∧ win0_0.index t (1 : Fin 3) = win0_4.index t (1 : Fin 4)
    ∧ win0_0.index t (2 : Fin 3) = 0
    ∧ win0_1.index t (0 : Fin 3) = win0_4.index t (0 : Fin 4)
    ∧ win0_1.index t (1 : Fin 3) = 0
    ∧ win0_1.index t (2 : Fin 3) = 0
    ∧ win0_2.index t (0 : Fin 2) = win0_4.index t (3 : Fin 4)
    ∧ win0_2.index t (1 : Fin 2) = 0
    ∧ win0_3.index t (0 : Fin 1) = win0_4.index t (3 : Fin 4)
    ∧ win0_4.index t (2 : Fin 4) = 0
    ∧ win0_4.index t (0 : Fin 4) ≤ 7 ∧ win0_4.index t (1 : Fin 4) ≤ 3 ∧ win0_4.index t (3 : Fin 4) ≤ 3 :=
  (by decide +kernel : ∀ t : Fin grid0.N, _)

/-- Every (batch entry, time tile, vocabulary block) is some point's output block. -/
theorem idx_onto : ∀ (q0 : Fin 8) (q1 : Fin 4) (q3 : Fin 4), ∃ t : Fin cfg0.N, win0_4.index t = ![q0.val, q1.val, 0, q3.val] :=
  (by decide +kernel : ∀ (q0 : Fin 8) (q1 : Fin 4) (q3 : Fin 4), ∃ t : Fin grid0.N, win0_4.index t = ![q0.val, q1.val, 0, q3.val])

/-! ## What a point writes back -/

/-- Point t writes back block t of the logits function of the argument arrays as the region finds them. -/
theorem flushed_eq (c : Dev nD) (t : Fin cfg0.N) :
    (dats m 0 c).flushed 4 t
      = ((cfg0.win 4).blk t).view.read (Elt Ideal) (logits (V m c main_arg0) (V m c main_arg1) (V m c main_arg2) (V m c main_arg3)) := by
  rw [Value.flushed4]
  unfold out0_4
  rw [View.canon_unit_zero zeros4]
  simp only [View.ld_unit_zero (S := S1x64x640) zeros3, View.ld_unit_zero (S := S256x640) zeros2, View.ld_unit_zero (S := S256) zeros1]
  obtain ⟨e00, e01, e02, e10, e11, e12, e20, e21, e30, e42, b0, b1, b3⟩ := idx_facts t
  funext j
  have hj0 : (j 0).val < 1 := (j 0).isLt
  show k0_pay1 (F := Ideal) (iblk m c 0 t) (iblk m c 1 t) (iblk m c 2 t) (iblk m c 3 t) j
    = logits (V m c main_arg0) (V m c main_arg1) (V m c main_arg2) (V m c main_arg3) (((cfg0.win 4).blk t).view.emb j)
  refine tile_is_logits (V m c main_arg0) (V m c main_arg1) (V m c main_arg2) (V m c main_arg3)
    (iblk m c 0 t) (iblk m c 1 t) (iblk m c 2 t) (iblk m c 3 t) j (((cfg0.win 4).blk t).view.emb j) ?_ ?_ ?_ ?_
  · intro k
    show V m c main_arg0 (((cfg0.win 0).blk t).view.emb (ix3 (0 : Fin 1) (j 1) k)) = _
    refine congrArg (V m c main_arg0) (funext fun a => Fin.ext ?_)
    match a with
    | ⟨0, _⟩ => show win0_0.index t (0 : Fin 3) * 1 + 1 * 0 = win0_4.index t (0 : Fin 4) * 1 + 1 * (j 0).val; omega
    | ⟨1, _⟩ => show win0_0.index t (1 : Fin 3) * 64 + 1 * (j 1).val = win0_4.index t (1 : Fin 4) * 64 + 1 * (j 1).val; omega
    | ⟨2, _⟩ => show win0_0.index t (2 : Fin 3) * 640 + 1 * k.val = k.val; omega
  · intro k
    show V m c main_arg1 (((cfg0.win 1).blk t).view.emb (ix3 (0 : Fin 1) (j 2) k)) = _
    refine congrArg (V m c main_arg1) (funext fun a => Fin.ext ?_)
    match a with
    | ⟨0, _⟩ => show win0_1.index t (0 : Fin 3) * 1 + 1 * 0 = win0_4.index t (0 : Fin 4) * 1 + 1 * (j 0).val; omega
    | ⟨1, _⟩ => show win0_1.index t (1 : Fin 3) * 64 + 1 * (j 2).val = win0_4.index t (2 : Fin 4) * 64 + 1 * (j 2).val; omega
    | ⟨2, _⟩ => show win0_1.index t (2 : Fin 3) * 640 + 1 * k.val = k.val; omega
  · intro k
    show V m c main_arg2 (((cfg0.win 2).blk t).view.emb (ix2 (j 3) k)) = _
    refine congrArg (V m c main_arg2) (funext fun a => Fin.ext ?_)
    match a with
    | ⟨0, _⟩ => show win0_2.index t (0 : Fin 2) * 256 + 1 * (j 3).val = win0_4.index t (3 : Fin 4) * 256 + 1 * (j 3).val; omega
    | ⟨1, _⟩ => show win0_2.index t (1 : Fin 2) * 640 + 1 * k.val = k.val; omega
  · show V m c main_arg3 (((cfg0.win 3).blk t).view.emb (ix1 (j 3))) = _
    refine congrArg (V m c main_arg3) (funext fun a => Fin.ext ?_)
    match a with
    | ⟨0, _⟩ => show win0_3.index t (0 : Fin 1) * 256 + 1 * (j 3).val = win0_4.index t (3 : Fin 4) * 256 + 1 * (j 3).val; omega

/-! ## The blocks tile the array -/

/-- An index of the array is in point t's block iff each coordinate is in the block's range on its axis. -/
theorem mem_blk (t : Fin cfg0.N) (i : S8x256x64x1024.Idx) :
    i ∈ ((cfg0.win 4).blk t).view.set ↔ ∀ a : Fin 4, win0_4.index t a * S1x64x64x256.size a ≤ (i a).val ∧ (i a).val < win0_4.index t a * S1x64x64x256.size a + S1x64x64x256.size a := by
  show i ∈ ((View.whole main_v0).slice (win0_4.rect t)).set ↔ _
  rw [View.set_slice_whole, Rect.mem_set_unit]
  exact Iff.rfl

/-- Every index of the result array lies in some point's block: batch entry, time step / 64, vocabulary entry / 256. -/
theorem cover (i : S8x256x64x1024.Idx) : ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 64, by omega⟩ ⟨(i 3).val / 256, by omega⟩
  have q0 : win0_4.index t (0 : Fin 4) = (i 0).val := congrFun ht 0
  have q1 : win0_4.index t (1 : Fin 4) = (i 1).val / 64 := congrFun ht 1
  have q2 : win0_4.index t (2 : Fin 4) = 0 := congrFun ht 2
  have q3 : win0_4.index t (3 : Fin 4) = (i 3).val / 256 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 64 ≤ (i 1).val ∧ (i 1).val < win0_4.index t (1 : Fin 4) * 64 + 64; omega
  | ⟨2, _⟩ => show win0_4.index t (2 : Fin 4) * 64 ≤ (i 2).val ∧ (i 2).val < win0_4.index t (2 : Fin 4) * 64 + 64; omega
  | ⟨3, _⟩ => show win0_4.index t (3 : Fin 4) * 256 ≤ (i 3).val ∧ (i 3).val < win0_4.index t (3 : Fin 4) * 256 + 256; omega

/-! ## The array after the run -/

/-- After the run the result array is the logits function of the argument arrays as launched. -/
theorem final (c : Dev nD) :
    (dats m 0 c).arrAt 4 cfg0.N
      = logits (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

/-- Every weakly fair execution of the kernel's program ends with the result array at the logits function of the
    arguments, the arguments unchanged. -/
theorem run : θ_run defs (onTc (τ := τ) (main (F := Ideal))) ⟨m, fun _ => 0, ρ⟩ fun r => ∀ c : Dev nD,
      r.2.mem ((c : Thread nD τ).loc main_v0)
        = logits (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefJoint.lean ====
/-
  The reference computes the logits function.

  Read one operation at a time, the reference broadcasts the encoder states along a new label axis and the
  predictor states along a new time axis, adds them, takes the maximum with zero, contracts the last axis
  against the projection's last axis, and adds the bias broadcast along the last axis. At an index (s, t, u, v)
  that is the sum over k of max (f[s,t,k] + p[s,u,k], 0) * W[v,k], plus b[v]: the composed index functions of
  the broadcasts are the coordinate triples of the specification, by computation.
-/
import proofs.«128222_j48438641164781_1_alg».proof.Proof.Gen.ReferenceIdeal.Read
import proofs.«128222_j48438641164781_1_alg».proof.Proof.Joint

noncomputable section

namespace Cert.ReferenceIdeal.IsJoint

open Cert.ReferenceIdeal Cert.ReferenceIdeal.Read Idealize.ShloMosaic Idealize.ShloMosaic.ValueIdx
open scoped BigOperators

/-- Through the two broadcasts, the encoder operand of the product at (s, t, u, ·, k) is f at (s, t, k). -/
theorem enc_idx (i : S8x256x64x1024.Idx) (k : Fin 640) :
    idx_main_v0 (idx_main_v2 (lidx_main_v6 i k)) = ix3 (i 0) (i 1) k :=
  funext fun a => Fin.ext (by match a with | ⟨0, _⟩ => rfl | ⟨1, _⟩ => rfl | ⟨2, _⟩ => rfl)

/-- Through the two broadcasts, the predictor operand of the product at (s, t, u, ·, k) is p at (s, u, k). -/
theorem pred_idx (i : S8x256x64x1024.Idx) (k : Fin 640) :
    idx_main_v1 (idx_main_v3 (lidx_main_v6 i k)) = ix3 (i 0) (i 2) k :=
  funext fun a => Fin.ext (by match a with | ⟨0, _⟩ => rfl | ⟨1, _⟩ => rfl | ⟨2, _⟩ => rfl)

/-- The projection operand of the product at (·, ·, ·, v, k) is W at (v, k). -/
theorem proj_idx (i : S8x256x64x1024.Idx) (k : Fin 640) : ridx_main_v6 i k = ix2 (i 3) k :=
  funext fun a => Fin.ext (by match a with | ⟨0, _⟩ => rfl | ⟨1, _⟩ => rfl)

/-- The broadcast bias at (·, ·, ·, v) is b at v. -/
theorem bias_idx (i : S8x256x64x1024.Idx) : idx_main_v7 (idx_main_v8 i) = ix1 (i 3) :=
  funext fun a => Fin.ext (by match a with | ⟨0, _⟩ => rfl)

/-- The reference's last stage, at the ideal values, is the logits function of the four arguments. -/
theorem result_eq (x0 : (⟨S8x256x640, .f32⟩ : BufTy).Contents (Elt Ideal)) (x1 : (⟨S8x64x640, .f32⟩ : BufTy).Contents (Elt Ideal))
    (x2 : (⟨S1024x640, .f32⟩ : BufTy).Contents (Elt Ideal)) (x3 : (⟨S1024, .f32⟩ : BufTy).Contents (Elt Ideal)) :
    val_main_v9 (F := Ideal) x0 x1 x2 x3 = Cert.Joint.logits x0 x1 x2 x3 := by
  funext i
  rw [val_main_v9_apply, val_main_v6_apply, val_main_v8_apply, val_main_v7_apply, bias_idx]
  unfold Cert.Joint.logits Cert.Joint.logit
  refine congrArg (· + x3 (ix1 (i 3))) (Finset.sum_congr rfl fun k _ => ?_)
  rw [val_main_v5_apply, val_main_v4_apply, val_main_v2_apply, val_main_v0_apply, val_main_v3_apply, val_main_v1_apply,
    val_main_call0_v0_apply, val_main_call0_cst_apply, enc_idx, pred_idx, proj_idx]
  rfl

end Cert.ReferenceIdeal.IsJoint

end
-- ==== Proof.lean ====
/-
  The joint network of a transducer — logits[s, t, u, v] = sum over k of relu (f[s, t, k] + p[s, u, k]) * W[v, k] + b[v] —
  computed by a tiled kernel (64 time steps x 64 label positions x 256 vocabulary entries per grid point, the 4096
  pair rows multiplied against the projection block with operands narrowed to bf16) against the plain einsum.

  On the extended reals the two programs are the same function of their four arguments, with no condition on the
  inputs: narrowing a float format is the identity there, the product into a zero accumulator and the host's
  contraction are the same sum over the 640 hidden coordinates, and each grid point's tile is its block of that
  function (Proof/Whole.lean over Proof/Body.lean; the reference in Proof/RefJoint.lean; the function itself in
  Proof/Joint.lean). The idealized kernel is the kernel's own text read at the ideal values, so the idealization claim has no conjunct. The three frames
  are the kernel's generated frame at either instance and the reference's run with its result dropped.
-/
import proofs.«128222_j48438641164781_1_alg».proof.Defs
import proofs.«128222_j48438641164781_1_alg».proof.Proof.Gen.Kernel
import proofs.«128222_j48438641164781_1_alg».proof.Proof.Gen.Kernel.Skeleton
import proofs.«128222_j48438641164781_1_alg».proof.Proof.Gen.Kernel.Launch
import proofs.«128222_j48438641164781_1_alg».proof.Proof.Gen.Kernel.Points
import proofs.«128222_j48438641164781_1_alg».proof.Proof.Gen.Kernel.Frame
import proofs.«128222_j48438641164781_1_alg».proof.Proof.Gen.KernelIdeal
import proofs.«128222_j48438641164781_1_alg».proof.Proof.Gen.KernelIdeal.Skeleton
import proofs.«128222_j48438641164781_1_alg».proof.Proof.Gen.KernelIdeal.Launch
import proofs.«128222_j48438641164781_1_alg».proof.Proof.Gen.KernelIdeal.Points
import proofs.«128222_j48438641164781_1_alg».proof.Proof.Gen.KernelIdeal.Frame
import proofs.«128222_j48438641164781_1_alg».proof.Proof.Gen.ReferenceIdeal
import proofs.«128222_j48438641164781_1_alg».proof.Proof.Gen.KernelIdeal.Value
import proofs.«128222_j48438641164781_1_alg».proof.Proof.Gen.ReferenceIdeal.Run
import proofs.«128222_j48438641164781_1_alg».proof.Proof.Gen.ReferenceIdeal.Read
import proofs.«128222_j48438641164781_1_alg».proof.Proof.Gen.Pre_finite_inputs
import proofs.«128222_j48438641164781_1_alg».proof.Proof.Whole
import proofs.«128222_j48438641164781_1_alg».proof.Proof.RefJoint
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_k : Cert.frame_Kernel := fun m ρ _ => Cert.Kernel.Gen.frame m ρ

/-- So does the kernel at the ideal values. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments both programs end with their result array at the logits function
    of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.IsJoint.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
